-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S1024x1024 : Shape := ⟨2, ![1024, 1024]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S1024x1024, .f32⟩
  | .local _ .vmem, ⟨1, _⟩ => ⟨S1024x1024, .f32⟩
  | .local _ .vmem, ⟨2, _⟩ => ⟨S64x4096, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def k0_off1 (i : grid0.Coords) : Fin 2 → Nat :=
  let c0_1 : Index := 0#32
  let arg1 : BitVec 32 := BitVec.ofNat 32 (i 1).val
  let c1024_i32 : BitVec 32 := 1024#32
  let v1 : BitVec 32 := Scalar.muli arg1 c1024_i32
  let v2 : Index := Scalar.indexCast v1
  ![0, v2.toNat]
def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  h_S64x1024 : 0 < S64x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  dot_S1024x1024_S64x1024_S1024x64_1_1_0_0_n_n_wf : DotDims.WF S1024x1024 S64x1024 S1024x64 [1] [1] [0] [0] [] []
  hrank0 : 0 < grid0.rank
  k0_off1_inb : ∀ i : grid0.Coords, ∀ a, (k0_off1 i) a + S64x1024.size a ≤ S64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x4096.size a
  hwx0_0 : ∀ i : grid0.Coords, EltTy.bits .f32 = 32 ∨ (Rect.block (s := S32768x4096) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.PI.Cases.lean ====
/-
  The router block's grid is 32 token blocks by 4 feature steps, walked feature step fastest, so the
  feature step of grid point `t` is `t mod 4`. The body has three conditionals on the feature step `k`:
  `k = 0` (store the first partial product plus the bias into the accumulator), `k ≠ 0` (add the partial
  product to the accumulator), `k = 3` (normalise the accumulator row by row and store the output block).
  So a point is in one of three cases: FIRST (`k = 0`: only the first conditional), MIDDLE (`k = 1, 2`: only
  the second) and LAST (`k = 3`: the second and the third). This module states the three conditions as the
  body computes them from the grid coordinates, decides each over the 128 points as a fact about `t mod 4`,
  records where the output window is idle (every point but the last of a token block, which is also the one
  point where its block is written back), and names the staging and accumulator memrefs a point is called with.
-/
import proofs.«148318_g69174743269937_cont_9to1c4b_262_9_alg».proof.Proof.Gen.KernelIdeal.Frame
import proofs.«148318_g69174743269937_cont_9to1c4b_262_9_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The three conditions, as the body computes them, and over the points -/

/-- "The feature step is 0", as the body's first conditional computes it from the grid coordinates. -/
abbrev isFirst (i : grid0.Coords) : Prop :=
  (Scalar.cmpi .ne (Scalar.extui (Scalar.cmpi .eq (BitVec.ofNat 32 (i 1).val) 0#32)) 0#32) = 1#1
/-- It holds exactly at the points `t ≡ 0 (mod 4)`. -/
theorem isFirst_iff : ∀ t : Fin cfg0.N, isFirst (grid0.coords t) ↔ t.val % 4 = 0 :=
  (by decide +kernel : ∀ t : Fin grid0.N, isFirst (grid0.coords t) ↔ t.val % 4 = 0)

/-- "The feature step is not 0", as the body's second conditional computes it. -/
abbrev isLater (i : grid0.Coords) : Prop :=
  (Scalar.cmpi .ne (Scalar.extui (Scalar.cmpi .ne (BitVec.ofNat 32 (i 1).val) 0#32)) 0#32) = 1#1
/-- It holds exactly at the points `t ≢ 0 (mod 4)`. -/
theorem isLater_iff : ∀ t : Fin cfg0.N, isLater (grid0.coords t) ↔ t.val % 4 ≠ 0 :=
  (by decide +kernel : ∀ t : Fin grid0.N, isLater (grid0.coords t) ↔ t.val % 4 ≠ 0)

/-- "The feature step is 3, the last", as the body's third conditional computes it. -/
abbrev isLast (i : grid0.Coords) : Prop := k0_cond3 i = 1#1
/-- It holds exactly at the points `t ≡ 3 (mod 4)`. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The three input windows (the token block, the weights, the bias row) are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle at every point but the last feature step of a token block. -/
theorem idle3_iff : ∀ t : Fin cfg0.N, cfg0.idle 3 (grid0.coords t) = true ↔ t.val % 4 ≠ 3 := by decide +kernel

/-! ## The memrefs a point is called with -/

/-- Each window's current staging memref at point `t`, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x64 .f32 := win0_3.stage (cfg0.slots t 3)
abbrev hs3 (t : Fin cfg0.N) : (ms3 t).IsWhole := hstage0_3 ((cfg0.slots t 3).cast nbuf0_3)
/-- The accumulator: a whole scoped buffer of the kernel's own, carried from one point to the next. -/
abbrev accM : Memref sig .tc .vmem S1024x64 .f32 := Memref.whole cc0_scratch0
/-- The views through which the output block's and the accumulator's contents are stated. -/
abbrev outV : View sig .tc .vmem S1024x64 .f32 := (Memref.whole cc0_stg3_0 : Memref sig .tc .vmem S1024x64 .f32).view
abbrev accV : View sig .tc .vmem S1024x64 .f32 := accM.view

/-- The region's own invariant (every scoped buffer that is no staging buffer at some contents, and the generator
    register at some state) is: the accumulator owned at some contents, and the register. -/
theorem regionInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.PI.RunFirst.lean ====
/-
  The body at a point of the FIRST case (feature step 0). It loads the token block `x0`, the weights' current
  1024-column slice (out of `x1`), the bias row `x2` and the accumulator (found at any contents: what the point
  before left, which the case does not use), and stores ONE piece into the accumulator: the partial product plus the
  broadcast bias. The output block's buffer is not touched and is handed back as found. What the accumulator
  ends with is kept as the list of pieces the run writes, found by running the body.
-/
import proofs.«148318_g69174743269937_cont_9to1c4b_262_9_alg».proof.Proof.PI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the FIRST case writes into the accumulator, with the proof that from whole memrefs at the given
    contents (the accumulator at anything) the body runs to a continuation that holds the inputs and the output buffer as they were and the
    accumulator with those pieces written. -/
noncomputable def runFirst (c : Dev nD) (i : grid0.Coords) (arg2 : Memref sig .tc .vmem S1024x1024 .f32) (harg2 : arg2.IsWhole) (arg3 : Memref sig .tc .vmem S64x4096 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (h1 : isFirst i) (h2 : ¬isLater i) (h3 : ¬isLast i)
    (x0 : Vec F S1024x1024 .f32) (x1 : Vec F S64x4096 .f32) (x2 : Vec F S1x64 .f32) :
    { LS : List (View.Piece (Elt F) S1024x64 .f32) //
      ∀ (xo : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, fun xo E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Body

end
-- ==== Proof.PI.RunMid.lean ====
/-
  The body at a point of the MIDDLE case (feature steps 1 and 2). It loads the token block `x0`, the weights'
  current 1024-column slice (out of `x1`) and the accumulator `xs` as the point before left it, and stores ONE
  piece into the accumulator: its old contents plus the partial product. The bias row and the output block's
  buffer are not touched and are handed back as found.
-/
import proofs.«148318_g69174743269937_cont_9to1c4b_262_9_alg».proof.Proof.PI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the MIDDLE case writes into the accumulator, with the proof that from whole memrefs at the given
    contents the body runs to a continuation that holds the inputs and the output buffer as they were and the
    accumulator with those pieces written. -/
noncomputable def runMid (c : Dev nD) (i : grid0.Coords) (arg2 : Memref sig .tc .vmem S1024x1024 .f32) (harg2 : arg2.IsWhole) (arg3 : Memref sig .tc .vmem S64x4096 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (h1 : ¬isFirst i) (h2 : isLater i) (h3 : ¬isLast i)
    (x0 : Vec F S1024x1024 .f32) (x1 : Vec F S64x4096 .f32) (x2 : Vec F S1x64 .f32) (xs : Vec F S1024x64 .f32) :
    { LS : List (View.Piece (Elt F) S1024x64 .f32) //
      ∀ (xo : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, fun xo E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Body

end
-- ==== Proof.PI.RunLast.lean ====
/-
  The body at a point of the LAST case (feature step 3). It loads the token block `x0`, the weights' current
  1024-column slice (out of `x1`) and the accumulator `xs` as the point before left it, stores the accumulator
  plus the partial product back, loads the accumulator again, and stores ONE piece into the output block's buffer:
  each row's exponentials of (entry minus the row's maximum), times the reciprocal of their sum. The output
  buffer is found at any contents (the body loads it once and ignores what it read). The bias row is not touched.
-/
import proofs.«148318_g69174743269937_cont_9to1c4b_262_9_alg».proof.Proof.PI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the LAST case writes into the output block's buffer (`LO`) and into the accumulator (`LS`), with the
    proof that from whole memrefs — the output buffer at anything — the body runs to a continuation that holds the
    inputs as they were and the two buffers with those pieces written. -/
noncomputable def runLast (c : Dev nD) (i : grid0.Coords) (arg2 : Memref sig .tc .vmem S1024x1024 .f32) (harg2 : arg2.IsWhole) (arg3 : Memref sig .tc .vmem S64x4096 .f32) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (h1 : ¬isFirst i) (h2 : isLater i) (h3 : isLast i)
    (x0 : Vec F S1024x1024 .f32) (x1 : Vec F S64x4096 .f32) (x2 : Vec F S1x64 .f32) (xs : Vec F S1024x64 .f32) :
    Σ' (LO : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, ?_, fun E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.PI.Frame.lean ====
/-
  The frame of the router kernel, at any float instance. After each grid point the accumulator holds what that
  point's case wrote: at a FIRST point the one piece that case stores, at a MIDDLE or LAST point the one piece
  stored over what the point before left. This is a recursion on the point (`accAfter`). The output block's buffer
  is written at LAST points only (`outAfter`), which are exactly the points where the block is written back to
  the array; elsewhere the window is idle and its buffer is handed back as found. The region's invariant carries
  the accumulator at `accAfter` of the point before (before the first point: at anything). With that proof data
  the body's three runs give the library's body obligation, the launch gives the run to the frame post, and the
  argument arrays, which only input windows stage, end as they began.
-/
import proofs.«148318_g69174743269937_cont_9to1c4b_262_9_alg».proof.Proof.PI.RunFirst
import proofs.«148318_g69174743269937_cont_9to1c4b_262_9_alg».proof.Proof.PI.RunMid
import proofs.«148318_g69174743269937_cont_9to1c4b_262_9_alg».proof.Proof.PI.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator after a FIRST point: that case's pieces read back. -/
def accOfFirst (c : Dev nD) (t : Fin cfg0.N) (h0 : t.val % 4 = 0) : Vec F S1024x64 .f32 :=
  accV.read (Elt F) (accV.writes (Elt F) accV.junk
    (runFirst c (grid0.coords t) (ms0 t) (hs0 t) (ms1 t) (hs1 t) (ms2 t) (hs2 t) (ms3 t) (hs3 t) accM (Memref.isWhole_whole _) ((isFirst_iff t).mpr h0) (fun h => ((isLater_iff t).mp h) h0) (fun h => by have := (isLast_iff t).mp h; omega)
      (iblk m c 0 t) (iblk m c 1 t) (iblk m c 2 t)).1)

/-- The accumulator after a MIDDLE point, over what the point before left (`xs`): that case's pieces read back. -/
def accOfMid (c : Dev nD) (t : Fin cfg0.N) (h0 : ¬t.val % 4 = 0) (h3 : ¬t.val % 4 = 3) (xs : Vec F S1024x64 .f32) : Vec F S1024x64 .f32 :=
  accV.read (Elt F) (accV.writes (Elt F) accV.junk
    (runMid c (grid0.coords t) (ms0 t) (hs0 t) (ms1 t) (hs1 t) (ms2 t) (hs2 t) (ms3 t) (hs3 t) accM (Memref.isWhole_whole _) (fun h => h0 ((isFirst_iff t).mp h)) ((isLater_iff t).mpr h0) (fun h => h3 ((isLast_iff t).mp h))
      (iblk m c 0 t) (iblk m c 1 t) (iblk m c 2 t) xs).1)

/-- The accumulator after a LAST point, over what the point before left. -/
def accOfLast (c : Dev nD) (t : Fin cfg0.N) (h0 : ¬t.val % 4 = 0) (h3 : t.val % 4 = 3) (xs : Vec F S1024x64 .f32) : Vec F S1024x64 .f32 :=
  accV.read (Elt F) (accV.writes (Elt F) accV.junk
    (runLast c (grid0.coords t) (ms0 t) (hs0 t) (ms1 t) (hs1 t) (ms2 t) (hs2 t) (ms3 t) (hs3 t) accM (Memref.isWhole_whole _) (fun h => h0 ((isFirst_iff t).mp h)) ((isLater_iff t).mpr h0) ((isLast_iff t).mpr h3)
      (iblk m c 0 t) (iblk m c 1 t) (iblk m c 2 t) xs).2.1)

/-- The output block's buffer after a LAST point, over the accumulator the point before left. -/
def outOfLast (c : Dev nD) (t : Fin cfg0.N) (h0 : ¬t.val % 4 = 0) (h3 : t.val % 4 = 3) (xs : Vec F S1024x64 .f32) : Vec F S1024x64 .f32 :=
  outV.read (Elt F) (outV.writes (Elt F) outV.junk
    (runLast c (grid0.coords t) (ms0 t) (hs0 t) (ms1 t) (hs1 t) (ms2 t) (hs2 t) (ms3 t) (hs3 t) accM (Memref.isWhole_whole _) (fun h => h0 ((isFirst_iff t).mp h)) ((isLater_iff t).mpr h0) ((isLast_iff t).mpr h3)
      (iblk m c 0 t) (iblk m c 1 t) (iblk m c 2 t) xs).1)

/-- Each case's pieces for the accumulator cover it: one store of the whole `1024 × 64` rectangle. -/
theorem accCover_first (c : Dev nD) (t : Fin cfg0.N) (h1 : isFirst (grid0.coords t)) (h2 : ¬isLater (grid0.coords t)) (h3 : ¬isLast (grid0.coords t))
    (x0 : Vec F S1024x1024 .f32) (x1 : Vec F S64x4096 .f32) (x2 : Vec F S1x64 .f32) (y : S1024x64.Idx) :
    ∃ pc ∈ (runFirst c (grid0.coords t) (ms0 t) (hs0 t) (ms1 t) (hs1 t) (ms2 t) (hs2 t) (ms3 t) (hs3 t) accM (Memref.isWhole_whole _) h1 h2 h3 x0 x1 x2).1, y ∈ pc.1.set :=
  View.cover_of_tiledL (runFirst c (grid0.coords t) (ms0 t) (hs0 t) (ms1 t) (hs1 t) (ms2 t) (hs2 t) (ms3 t) (hs3 t) accM (Memref.isWhole_whole _) h1 h2 h3 x0 x1 x2).1 S1024x64.size (by sl_kernel_rfl) y
theorem accCover_mid (c : Dev nD) (t : Fin cfg0.N) (h1 : ¬isFirst (grid0.coords t)) (h2 : isLater (grid0.coords t)) (h3 : ¬isLast (grid0.coords t))
    (x0 : Vec F S1024x1024 .f32) (x1 : Vec F S64x4096 .f32) (x2 : Vec F S1x64 .f32) (xs : Vec F S1024x64 .f32) (y : S1024x64.Idx) :
    ∃ pc ∈ (runMid c (grid0.coords t) (ms0 t) (hs0 t) (ms1 t) (hs1 t) (ms2 t) (hs2 t) (ms3 t) (hs3 t) accM (Memref.isWhole_whole _) h1 h2 h3 x0 x1 x2 xs).1, y ∈ pc.1.set :=
  View.cover_of_tiledL (runMid c (grid0.coords t) (ms0 t) (hs0 t) (ms1 t) (hs1 t) (ms2 t) (hs2 t) (ms3 t) (hs3 t) accM (Memref.isWhole_whole _) h1 h2 h3 x0 x1 x2 xs).1 S1024x64.size (by sl_kernel_rfl) y
theorem accCover_last (c : Dev nD) (t : Fin cfg0.N) (h1 : ¬isFirst (grid0.coords t)) (h2 : isLater (grid0.coords t)) (h3 : isLast (grid0.coords t))
    (x0 : Vec F S1024x1024 .f32) (x1 : Vec F S64x4096 .f32) (x2 : Vec F S1x64 .f32) (xs : Vec F S1024x64 .f32) (y : S1024x64.Idx) :
    ∃ pc ∈ (runLast c (grid0.coords t) (ms0 t) (hs0 t) (ms1 t) (hs1 t) (ms2 t) (hs2 t) (ms3 t) (hs3 t) accM (Memref.isWhole_whole _) h1 h2 h3 x0 x1 x2 xs).2.1, y ∈ pc.1.set :=
  View.cover_of_tiledL (runLast c (grid0.coords t) (ms0 t) (hs0 t) (ms1 t) (hs1 t) (ms2 t) (hs2 t) (ms3 t) (hs3 t) accM (Memref.isWhole_whole _) h1 h2 h3 x0 x1 x2 xs).2.1 S1024x64.size (by sl_kernel_rfl) y
/-- The LAST case's pieces for the output block cover it: one store of the whole rectangle. -/
theorem outCover_last (c : Dev nD) (t : Fin cfg0.N) (h1 : ¬isFirst (grid0.coords t)) (h2 : isLater (grid0.coords t)) (h3 : isLast (grid0.coords t))
    (x0 : Vec F S1024x1024 .f32) (x1 : Vec F S64x4096 .f32) (x2 : Vec F S1x64 .f32) (xs : Vec F S1024x64 .f32) (y : S1024x64.Idx) :
    ∃ pc ∈ (runLast c (grid0.coords t) (ms0 t) (hs0 t) (ms1 t) (hs1 t) (ms2 t) (hs2 t) (ms3 t) (hs3 t) accM (Memref.isWhole_whole _) h1 h2 h3 x0 x1 x2 xs).1, y ∈ pc.1.set :=
  View.cover_of_tiledL (runLast c (grid0.coords t) (ms0 t) (hs0 t) (ms1 t) (hs1 t) (ms2 t) (hs2 t) (ms3 t) (hs3 t) accM (Memref.isWhole_whole _) h1 h2 h3 x0 x1 x2 xs).1 S1024x64.size (by sl_kernel_rfl) y

/-! ## The accumulator after each point -/

/-- What the accumulator holds after the body at point `n`: the case `n mod 4` selects, run at the point's
    memrefs and input blocks, a MIDDLE or LAST point over what this gives at `n - 1`. -/
def accAfter (c : Dev nD) : (n : ℕ) → n < cfg0.N → Vec F S1024x64 .f32
  | 0, hn => accOfFirst m c ⟨0, hn⟩ (Nat.zero_mod 4)
  | n + 1, hn =>
    if h0 : (n + 1) % 4 = 0 then accOfFirst m c ⟨n + 1, hn⟩ h0
    else if h3 : (n + 1) % 4 = 3 then accOfLast m c ⟨n + 1, hn⟩ h0 h3 (accAfter c n (Nat.lt_of_succ_lt hn))
    else accOfMid m c ⟨n + 1, hn⟩ h0 h3 (accAfter c n (Nat.lt_of_succ_lt hn))

theorem accAfter_first (c : Dev nD) (t : Fin cfg0.N) (h0 : t.val % 4 = 0) :
    accAfter m c t.val t.isLt = accOfFirst m c t h0 := by
  obtain ⟨n, hn⟩ := t
  cases n with
  | zero => rfl
  | succ n => exact dif_pos h0

theorem accAfter_mid (c : Dev nD) (t : Fin cfg0.N) (h0 : ¬t.val % 4 = 0) (h3 : ¬t.val % 4 = 3) :
    accAfter m c t.val t.isLt = accOfMid m c t h0 h3 (accAfter m c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h3).trans rfl)

theorem accAfter_last (c : Dev nD) (t : Fin cfg0.N) (h0 : ¬t.val % 4 = 0) (h3 : t.val % 4 = 3) :
    accAfter m c t.val t.isLt = accOfLast m c t h0 h3 (accAfter m c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h3).trans rfl)

/-- What the output block's buffer holds after the body at point `t`: at a LAST point that case's store over the
    accumulator the point before left; elsewhere the window is idle and this value is never consulted. -/
def outAfter (c : Dev nD) (t : Fin cfg0.N) : Vec F S1024x64 .f32 :=
  if h3 : t.val % 4 = 3 then
    outOfLast m c t (by omega) h3 (accAfter m c (t.val - 1) (Nat.lt_of_le_of_lt (Nat.sub_le _ _) t.isLt))
  else outV.read (Elt F) outV.junk

theorem outAfter_last (c : Dev nD) (t : Fin cfg0.N) (h0 : ¬t.val % 4 = 0) (h3 : t.val % 4 = 3) :
    outAfter m c t = outOfLast m c t h0 h3 (accAfter m c (t.val - 1) (Nat.lt_of_le_of_lt (Nat.sub_le _ _) t.isLt)) := dif_pos h3

/-! ## The region's invariant, point by point -/

/-- Before point 0 the accumulator holds anything; before point `n + 1` what point `n` left. The generator register is
    at some state throughout. -/
def inv (c : Dev nD) : (n : ℕ) → n ≤ cfg0.N → sProp 𝕄
  | 0, _ => Pipeline.ΦA spec0 c
  | n + 1, hn => iprop(iprop(owns (c : Thread nD τ) accM fullShare (accAfter m c n hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare (accAfter m c n hn)) ∗ (∃ r, prngReg c r)) := rfl

theorem inv_pos (c : Dev nD) (n : ℕ) (h : n ≤ cfg0.N) (hz : n ≠ 0) :
    inv m c n h = iprop(iprop(owns (c : Thread nD τ) accM fullShare (accAfter m c (n - 1) (by omega))) ∗ (∃ r, prngReg c r)) := by
  cases n with
  | zero => exact absurd rfl hz
  | succ n => rfl

/-! ## The proof data -/

/-- The arrays as the region finds them; after the body each input's buffer at its block and the output's at
    `outAfter`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAfter m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAfter m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (ms0 t) fullShare (iblk m c 0 t) := by
  unfold Dat.leavesExact; rw [live0 t, after0]
theorem leaves_in1 (c : Dev nD) (t : Fin cfg0.N) :
    (dats m 0 c).leavesExact 1 t = owns (c : Thread nD τ) (ms1 t) fullShare (iblk m c 1 t) := by
  unfold Dat.leavesExact; rw [live1 t, after1]
theorem leaves_in2 (c : Dev nD) (t : Fin cfg0.N) :
    (dats m 0 c).leavesExact 2 t = owns (c : Thread nD τ) (ms2 t) fullShare (iblk m c 2 t) := by
  unfold Dat.leavesExact; rw [live2 t, after2]
/-- Off the LAST points the output window is idle and not written back: its buffer goes back as found. -/
theorem leaves_out_idle (c : Dev nD) (t : Fin cfg0.N) (h3 : ¬t.val % 4 = 3) :
    (dats m 0 c).leavesExact 3 t = iprop(∃ d, owns (c : Thread nD τ) (ms3 t) fullShare ((dats m 0 c).before 3 t d)) :=
  Dat.leavesExact_idle (dats m 0 c) 3 t ((idle3_iff t).mpr h3) (Bool.eq_false_iff.mpr fun h => h3 ((flush0_3 t).mp h))
/-- At a LAST point the output window is live: its buffer goes back at `outAfter`. -/
theorem leaves_out_live (c : Dev nD) (t : Fin cfg0.N) (h3 : t.val % 4 = 3) :
    (dats m 0 c).leavesExact 3 t = owns (c : Thread nD τ) (ms3 t) fullShare (outAfter m c t) := by
  unfold Dat.leavesExact
  rw [show cfg0.idle 3 (cfg0.grid.coords t) = false from Bool.eq_false_iff.mpr fun h => (idle3_iff t).mp h h3, after3]

set_option maxHeartbeats 4800000 in
/-- The body at any point: the inputs' buffers hold their blocks; `t mod 4` says which case the point is in; that
    case's run applies, handed the accumulator at what the point before left (at anything before point 0, and a FIRST
    point does not care), and gives it back with this point's pieces written, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = inv m c (t.val + 1) t.isLt from rfl, inv_succ]
  rw [leaves_in0, leaves_in1, leaves_in2]
  by_cases h0 : t.val % 4 = 0
  · have h3 : ¬t.val % 4 = 3 := by omega
    rw [leaves_out_idle m c t h3, accAfter_first m c t h0]
    unfold accOfFirst; (try dsimp only)
    by_cases hz : t.val = 0
    · rw [inv_castSucc m c t, inv_zero m c _ _ hz, regionInv_eq]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((isFirst_iff t).mpr h0) (fun h => ((isLater_iff t).mp h) h0) (fun h => by have := (isLast_iff t).mp h; omega) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCover_first c t _ _ _ _ _ _)
        iexact Hg
      isplitl [Ho]; · iexact Ho
      isplitl [H0]; · iexact H0
      isplitl [H1]; · iexact H1
      isplitl [H2]; · iexact H2
      iexists _; iexact H3
    · rw [inv_castSucc m c t, inv_pos m c _ _ hz]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((isFirst_iff t).mpr h0) (fun h => ((isLater_iff t).mp h) h0) (fun h => by have := (isLast_iff t).mp h; omega) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCover_first c t _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [leaves_out_live m c t h3, outAfter_last m c t h0 h3, accAfter_last m c t h0 h3]
      unfold outOfLast accOfLast; (try dsimp only)
      rw [inv_castSucc m c t, inv_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((isFirst_iff t).mp h)) ((isLater_iff t).mpr h0) ((isLast_iff t).mpr h3) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (accCover_last c t _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c t _ _ _ _ _ _ _)
    · rw [leaves_out_idle m c t h3, accAfter_mid m c t h0 h3]
      unfold accOfMid; (try dsimp only)
      rw [inv_castSucc m c t, inv_pos m c _ _ hz]
      iintro ⟨⟨HS, Hg⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) (fun h => h0 ((isFirst_iff t).mp h)) ((isLater_iff t).mpr h0) (fun h => h3 ((isLast_iff t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCover_mid c t _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the region's own back: what the accumulator holds is forgotten. -/
theorem hout (c : Dev nD) : (dats m 0 c).Φ (Fin.last cfg0.N) ⊢ Pipeline.ΦA spec0 c := by
  have hN : (Fin.last cfg0.N).val ≠ 0 := by rw [Fin.val_last]; have : cfg0.N = 128 := N_0; omega
  rw [show (dats m 0 c).Φ (Fin.last cfg0.N) = inv m c (Fin.last cfg0.N).val (Nat.le_of_lt_succ (Fin.last cfg0.N).isLt) from rfl,
    inv_pos m c _ _ hN, regionInv_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Pieces.lean ====
/-
  What each case of the router body leaves, as a payload of the blocks the point is called with.

  Each case writes ONE piece, through the whole rectangle of its buffer, so what the buffer reads back is that
  piece's payload; and every load but the weights' goes through the whole rectangle of its buffer, so it reads the
  buffer's contents. The weights are loaded through the 64 × 1024 rectangle at column offset 1024 · (feature step):
  the slice of the resident 64 × 4096 weight block that belongs to the step. Hence:
    * after a FIRST point the accumulator is (partial product + bias row) of the point's token block and slice;
    * after a MIDDLE or LAST point it is (old accumulator + partial product);
    * at a LAST point the output block's buffer is the row-wise normalisation of the accumulator just written.
-/
import proofs.«148318_g69174743269937_cont_9to1c4b_262_9_alg».proof.Proof.PI.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

theorem zero2 : (![0, 0] : Fin 2 → Nat) = fun _ => 0 := funext fun a => by fin_cases a <;> rfl

/-- The point's token block, the resident weight block and the bias row, at their literal types. -/
abbrev xblk (c : Dev nD) (t : Fin cfg0.N) : Vec F S1024x1024 .f32 := iblk m c 0 t
abbrev wblk (c : Dev nD) (t : Fin cfg0.N) : Vec F S64x4096 .f32 := iblk m c 1 t
abbrev bblk (c : Dev nD) (t : Fin cfg0.N) : Vec F S1x64 .f32 := iblk m c 2 t
/-- The weights' slice for the point's feature step: columns `1024 k` to `1024 k + 1023` of the weight block. -/
abbrev wslice (c : Dev nD) (t : Fin cfg0.N) : Vec F S64x1024 .f32 :=
  View.ld (wblk m c t) (Rect.unit (s := S64x4096) (k0_off1 (grid0.coords t)) S64x1024.size (k0_off1_inb (grid0.coords t)))

/-- The accumulator read back through its own memref after being written whole is what was written. -/
theorem acc_read_unread (h : (accM : Memref sig .tc .vmem S1024x64 .f32).IsWhole) (xs : Vec F S1024x64 .f32) :
    View.read (Elt F) accM.view (h.unread xs) = xs :=
  h.read_unread xs

theorem accOfFirst_eq (c : Dev nD) (t : Fin cfg0.N) (h0 : t.val % 4 = 0) :
    accOfFirst m c t h0 = k0_pay2 (xblk m c t) (wslice m c t) (bblk m c t) := by
  unfold accOfFirst
  rw [View.read_writes_eq_canon _ _ _ (accCover_first c t _ _ _ _ _ _)]
  unfold runFirst
  dsimp only
  sl_unfold_words
  rw [View.canon_unit_zero zero2]
  simp only [View.readAt_eq_ld, Memref.IsWhole.read_unread, View.ld_unit_zero (S := S1024x1024) zero2, View.ld_unit_zero (S := S1x64) zero2]
  rfl

theorem accOfMid_eq (c : Dev nD) (t : Fin cfg0.N) (h0 : ¬t.val % 4 = 0) (h3 : ¬t.val % 4 = 3) (xs : Vec F S1024x64 .f32) :
    accOfMid m c t h0 h3 xs = k0_pay3 (xblk m c t) (wslice m c t) xs := by
  unfold accOfMid
  rw [View.read_writes_eq_canon _ _ _ (accCover_mid c t _ _ _ _ _ _ _)]
  unfold runMid
  dsimp only
  sl_unfold_words
  rw [View.canon_unit_zero zero2]
  simp only [View.readAt_eq_ld, Memref.IsWhole.read_unread, View.ld_unit_zero (S := S1024x1024) zero2, View.ld_unit_zero (S := S1024x64) zero2]
  exact congrArg (k0_pay3 (xblk m c t) (wslice m c t)) (acc_read_unread _ xs)

theorem accOfLast_eq (c : Dev nD) (t : Fin cfg0.N) (h0 : ¬t.val % 4 = 0) (h3 : t.val % 4 = 3) (xs : Vec F S1024x64 .f32) :
    accOfLast m c t h0 h3 xs = k0_pay3 (xblk m c t) (wslice m c t) xs := by
  unfold accOfLast
  rw [View.read_writes_eq_canon _ _ _ (accCover_last c t _ _ _ _ _ _ _)]
  unfold runLast
  dsimp only
  sl_unfold_words
  rw [View.canon_unit_zero zero2]
  simp only [View.readAt_eq_ld, Memref.IsWhole.read_unread, View.ld_unit_zero (S := S1024x1024) zero2, View.ld_unit_zero (S := S1024x64) zero2]
  exact congrArg (k0_pay3 (xblk m c t) (wslice m c t)) (acc_read_unread _ xs)

theorem outOfLast_eq (c : Dev nD) (t : Fin cfg0.N) (h0 : ¬t.val % 4 = 0) (h3 : t.val % 4 = 3) (xs : Vec F S1024x64 .f32) :
    outOfLast m c t h0 h3 xs = k0_pay4 (k0_pay3 (xblk m c t) (wslice m c t) xs) := by
  unfold outOfLast
  rw [View.read_writes_eq_canon _ _ _ (outCover_last c t _ _ _ _ _ _ _)]
  unfold runLast
  dsimp only
  sl_unfold_words
  rw [View.canon_unit_zero zero2]
  simp only [View.readAt_eq_ld, Memref.IsWhole.read_unread, View.ld_unit_zero (S := S1024x1024) zero2, View.ld_unit_zero (S := S1024x64) zero2,
    View.readCov_unit_zero (S := S1024x64) _ zero2]
  exact congrArg (fun z => k0_pay4 (k0_pay3 (xblk m c t) (wslice m c t) z)) (acc_read_unread _ xs)

end Cert.KernelIdeal.Body

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.SoftmaxLaw.lean ====
/-
  The mathematics that joins the router kernel to its reference, over the extended reals, with no program in sight.

  Both compute, for each token (a row of 4096 features) and each of 64 experts, the logit: the inner product of the
  token with the expert's weight row, plus the expert's bias; and then the softmax of each token's 64 logits.

  They differ in two ways. (1) The kernel cuts the 4096 features into four steps of 1024 and accumulates
  ((P₀ + b) + P₁ + P₂) + P₃, where Pₖ is the partial inner product over step k; the reference computes
  (P₀ + P₁ + P₂ + P₃) + b as one sum. Addition of extended reals is commutative and associative, so the two agree
  on every input. (2) With M the row's maximum and s the sum of exp(logit − M) over the row, the reference
  divides each exponential by s, and the kernel multiplies it by (1 / s). When the logits are real numbers, M is
  real, every exponential is a positive real, s is a positive real, and both are the real quotient. (At an
  infinite logit the two could differ, which is why the inputs are assumed finite.)
-/
import proofs.«148318_g69174743269937_cont_9to1c4b_262_9_alg».proof.Proof.LibAllReal
import Idealize.ShloMosaic.Lib.ValueIdx

noncomputable section

namespace Cert.Router

open Idealize.ShloMosaic Idealize.ShloMosaic.ValueIdx Cert.Spec
open scoped BigOperators

/-! ## Finite sums and maxima of real numbers, in the extended reals -/

/-- A finite sum of real numbers taken in the extended reals is their real sum. -/
theorem coe_sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many real numbers, folded from −∞, is a real number as soon as there is one. -/
theorem fold_max_real {ι : Type} [DecidableEq ι] (s : Finset ι) (v : ι → EReal) (hv : ∀ i, ∃ r : ℝ, v i = (r : EReal)) :
    s = ∅ ∨ ∃ r : ℝ, s.fold max ⊥ v = (r : EReal) := by
  induction s using Finset.induction_on with
  | empty => exact Or.inl rfl
  | insert a s ha ih =>
    right
    rw [Finset.fold_insert ha]
    obtain ⟨ra, hra⟩ := hv a
    rcases ih with h | ⟨r, h⟩
    · subst h
      exact ⟨ra, by rw [Finset.fold_empty, hra]; exact max_eq_left bot_le⟩
    · exact ⟨max ra r, by rw [h, hra, coe_max_real]⟩

/-- The word `0xFF800000` of the 32-bit format denotes −∞, and the word `0x3F800000` the number one. -/
theorem ofBits_neg_inf : Ideal.ofBits .f32 0xFF800000#32 = (⊥ : EReal) := by simp [Ideal.ofBits, Ideal.ieee]
theorem ofBits_one : Ideal.ofBits .f32 0x3F800000#32 = (1 : EReal) := by rw [ofBits_f32_one, EReal.coe_one]

/-! ## One row of 64 logits -/

/-- The row's maximum, as both programs take it: the fold of `max` from −∞ over the 64 entries. -/
def rowMax (v : Fin 64 → EReal) : EReal := (Finset.univ : Finset (Fin 64)).fold max ⊥ v

theorem rowMax_real (v : Fin 64 → EReal) (hv : ∀ e, ∃ r : ℝ, v e = (r : EReal)) : ∃ M : ℝ, rowMax v = (M : EReal) := by
  rcases fold_max_real Finset.univ v hv with h | h
  · exact absurd h (Finset.univ_nonempty (α := Fin 64)).ne_empty
  · exact h

/-- The softmax of a row as the reference computes it: the maximum is once more compared with −∞, the sum starts
    from 0, and each exponential is DIVIDED by the sum. -/
def softDiv (v : Fin 64 → EReal) (e : Fin 64) : EReal :=
  Ideal.div (Ideal.exp (v e - max ⊥ (rowMax v))) (0 + ∑ e' : Fin 64, Ideal.exp (v e' - max ⊥ (rowMax v)))

/-- The softmax of a row as the kernel computes it: each exponential is MULTIPLIED by one over the sum. -/
def softMul (v : Fin 64 → EReal) (e : Fin 64) : EReal :=
  Ideal.exp (v e - rowMax v) * Ideal.div 1 (∑ e' : Fin 64, Ideal.exp (v e' - rowMax v))

/-- On a row of real numbers the two are the same: the sum of the exponentials is a positive real `s`, and both
    `a · (1 / s)` and `a / s` are the product of `a` with the real `1 / s`. -/
theorem softMul_eq_softDiv (v : Fin 64 → EReal) (hv : ∀ e, ∃ r : ℝ, v e = (r : EReal)) (e : Fin 64) :
    softMul v e = softDiv v e := by
  obtain ⟨M, hM⟩ := rowMax_real v hv
  choose w hw using hv
  have hexp : ∀ e', Ideal.exp (v e' - rowMax v) = ((Real.exp (w e' - M) : ℝ) : EReal) := fun e' => by
    rw [hw e', hM, ← EReal.coe_sub, Ideal.exp_coe]
  have hsum : ∑ e' : Fin 64, Ideal.exp (v e' - rowMax v) = ((∑ e' : Fin 64, Real.exp (w e' - M) : ℝ) : EReal) := by
    rw [← coe_sum_real]; exact Finset.sum_congr rfl fun e' _ => hexp e'
  have hpos : (∑ e' : Fin 64, Real.exp (w e' - M)) ≠ 0 :=
    (Finset.sum_pos (fun _ _ => Real.exp_pos _) Finset.univ_nonempty).ne'
  unfold softMul softDiv
  rw [max_eq_right (bot_le : (⊥ : EReal) ≤ rowMax v), zero_add, hsum, Ideal.div_coe hpos, Ideal.div_coe hpos, one_mul]

/-! ## One logit: 4096 products, in four steps of 1024 -/

/-- The partial inner product over feature step `k`: features `1024 k` to `1024 k + 1023`. -/
def part (x w : Fin 4096 → EReal) (k : Fin 4) : EReal :=
  ∑ j : Fin 1024, x ⟨1024 * k.val + j.val, by have := k.isLt; have := j.isLt; omega⟩
    * w ⟨1024 * k.val + j.val, by have := k.isLt; have := j.isLt; omega⟩

/-- What the kernel's accumulator holds after feature step `k`: the first partial plus the bias, then one more
    partial per step. -/
def accUpTo (P : Fin 4 → EReal) (b : EReal) : ℕ → EReal
  | 0 => P 0 + b
  | k + 1 => accUpTo P b k + P ⟨(k + 1) % 4, Nat.mod_lt _ (by decide)⟩

theorem accUpTo_zero (P : Fin 4 → EReal) (b : EReal) : accUpTo P b 0 = P 0 + b := rfl
theorem accUpTo_succ (P : Fin 4 → EReal) (b : EReal) (k : ℕ) :
    accUpTo P b (k + 1) = accUpTo P b k + P ⟨(k + 1) % 4, Nat.mod_lt _ (by decide)⟩ := rfl

/-- After the last step it is the sum of the four partials plus the bias: only the order of the additions differs. -/
theorem accUpTo_three (P : Fin 4 → EReal) (b : EReal) : accUpTo P b 3 = (∑ k : Fin 4, P k) + b := by
  rw [Fin.sum_univ_four]
  show P 0 + b + P 1 + P 2 + P 3 = P 0 + P 1 + P 2 + P 3 + b
  ac_rfl

/-- A sum over 4096 features is the sum over the four steps of the sums over each step's 1024 features. -/
theorem sum_four_steps (f : Fin 4096 → EReal) :
    ∑ j : Fin 4096, f j = ∑ k : Fin 4, ∑ j : Fin 1024, f ⟨1024 * k.val + j.val, by have := k.isLt; have := j.isLt; omega⟩ := by
  rw [← Fintype.sum_prod_type']
  exact (Fintype.sum_equiv (finProdFinEquiv (m := 4) (n := 1024)) _ f fun p =>
    congrArg f (Fin.ext (by show 1024 * p.1.val + p.2.val = p.2.val + 1024 * p.1.val; omega))).symm

/-- So the kernel's accumulator after the last step is the reference's logit. -/
theorem accUpTo_part (x w : Fin 4096 → EReal) (b : EReal) :
    accUpTo (part x w) b 3 = (∑ j : Fin 4096, x j * w j) + b := by
  rw [accUpTo_three, sum_four_steps fun j => x j * w j]; rfl

/-! ## The whole arrays -/

/-- Token `r`'s 64 logits, the reference's way: one sum over the 4096 features, plus the bias. -/
def logitRow (x : (⟨2, ![32768, 4096]⟩ : Shape).Idx → EReal) (W : (⟨2, ![64, 4096]⟩ : Shape).Idx → EReal)
    (b : (⟨1, ![64]⟩ : Shape).Idx → EReal) (r : Fin 32768) : Fin 64 → EReal :=
  fun e => (∑ j : Fin 4096, x (ix2 r j) * W (ix2 e j)) + b (ix1 e)

/-- Token `r`'s 64 logits, the kernel's way: the accumulator after the last of the four feature steps. -/
def accRow (x : (⟨2, ![32768, 4096]⟩ : Shape).Idx → EReal) (W : (⟨2, ![64, 4096]⟩ : Shape).Idx → EReal)
    (b : (⟨1, ![64]⟩ : Shape).Idx → EReal) (r : Fin 32768) (k : ℕ) : Fin 64 → EReal :=
  fun e => accUpTo (part (fun j => x (ix2 r j)) (fun j => W (ix2 e j))) (b (ix1 e)) k

theorem accRow_three (x : (⟨2, ![32768, 4096]⟩ : Shape).Idx → EReal) (W : (⟨2, ![64, 4096]⟩ : Shape).Idx → EReal)
    (b : (⟨1, ![64]⟩ : Shape).Idx → EReal) (r : Fin 32768) : accRow x W b r 3 = logitRow x W b r :=
  funext fun e => accUpTo_part _ _ _

/-- The router's weights as the reference computes them: the softmax (dividing) of each token's logits. -/
def G (x : (⟨2, ![32768, 4096]⟩ : Shape).Idx → EReal) (W : (⟨2, ![64, 4096]⟩ : Shape).Idx → EReal)
    (b : (⟨1, ![64]⟩ : Shape).Idx → EReal) : (⟨2, ![32768, 64]⟩ : Shape).Idx → EReal :=
  fun i => softDiv (logitRow x W b ⟨(i 0).val, (i 0).isLt⟩) ⟨(i 1).val, (i 1).isLt⟩

/-- The same as the kernel computes them: the softmax (multiplying by the reciprocal) of each token's accumulator. -/
def K (x : (⟨2, ![32768, 4096]⟩ : Shape).Idx → EReal) (W : (⟨2, ![64, 4096]⟩ : Shape).Idx → EReal)
    (b : (⟨1, ![64]⟩ : Shape).Idx → EReal) : (⟨2, ![32768, 64]⟩ : Shape).Idx → EReal :=
  fun i => softMul (accRow x W b ⟨(i 0).val, (i 0).isLt⟩ 3) ⟨(i 1).val, (i 1).isLt⟩

/-- A token's logits are real numbers when the tokens, the weights and the bias are. -/
theorem logitRow_real {x : (⟨2, ![32768, 4096]⟩ : Shape).Idx → EReal} {W : (⟨2, ![64, 4096]⟩ : Shape).Idx → EReal}
    {b : (⟨1, ![64]⟩ : Shape).Idx → EReal} (hx : AllReal x) (hW : AllReal W) (hb : AllReal b) (r : Fin 32768) (e : Fin 64) :
    ∃ q : ℝ, logitRow x W b r e = (q : EReal) := by
  obtain ⟨s, hs⟩ := exists_real_sum Finset.univ (fun j : Fin 4096 => x (ix2 r j) * W (ix2 e j)) fun j _ => by
    obtain ⟨a, ha⟩ := hx (ix2 r j); obtain ⟨c, hc⟩ := hW (ix2 e j)
    exact ⟨a * c, by rw [ha, hc, EReal.coe_mul]⟩
  obtain ⟨β, hβ⟩ := hb (ix1 e)
  exact ⟨s + β, by unfold logitRow; rw [hs, hβ, EReal.coe_add]⟩

/-- On real inputs the kernel's function is the reference's. -/
theorem K_eq_G {x : (⟨2, ![32768, 4096]⟩ : Shape).Idx → EReal} {W : (⟨2, ![64, 4096]⟩ : Shape).Idx → EReal}
    {b : (⟨1, ![64]⟩ : Shape).Idx → EReal} (hx : AllReal x) (hW : AllReal W) (hb : AllReal b) : K x W b = G x W b := by
  funext i
  unfold K G
  rw [accRow_three]
  exact softMul_eq_softDiv _ (logitRow_real hx hW hb _) _

end Cert.Router

end
-- ==== Proof.Payloads.lean ====
/-
  The router body's arithmetic, read entry by entry over the extended reals.

  The body's stores write four pure terms of the blocks it loads. With `x` the token block (1024 tokens by 1024
  features of the current feature step), `w` the weights' slice for that step (64 experts by the same 1024 features),
  `β` the bias row and `a` the accumulator (1024 tokens by 64 experts):
    * the partial product at (token p, expert q) is the sum over the step's 1024 features j of x(p, j) · w(q, j)
      (a matrix product contracting the FEATURE axis of both operands, into a zero accumulator);
    * the first step stores the partial product plus β(q);
    * a later step stores a(p, q) plus the partial product;
    * the last step stores, at (p, q), exp(a(p, q) − M) · (1 / s), with M the maximum of row p of `a` and
      s the sum over the row of exp(a(p, ·) − M): the kernel's form of the softmax of row p.
-/
import proofs.«148318_g69174743269937_cont_9to1c4b_262_9_alg».proof.Proof.Gen.KernelIdeal.Skeleton
import proofs.«148318_g69174743269937_cont_9to1c4b_262_9_alg».proof.Proof.SoftmaxLaw
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.Router Cert.Spec
open scoped BigOperators

/-! ## The matrix product's operand indices: tokens and experts are kept, the feature axis of both is contracted -/

theorem lhs_tok (i : S1024x64.Idx) (q : dot_S1024x1024_S64x1024_S1024x64_1_1_0_0_n_n.contr.Idx) :
    (dot_S1024x1024_S64x1024_S1024x64_1_1_0_0_n_n.lhsIdx i q 0).val = (i 0).val := by
  unfold DotDims.lhsIdx
  rw [dif_neg (show ¬(0 : Fin S1024x1024.rank) ∈ dot_S1024x1024_S64x1024_S1024x64_1_1_0_0_n_n.lhsBatch by decide), dif_pos (show (0 : Fin S1024x1024.rank) ∈ dot_S1024x1024_S64x1024_S1024x64_1_1_0_0_n_n.lhsNonContracting by decide)]
  rfl
theorem lhs_feat (i : S1024x64.Idx) (q : dot_S1024x1024_S64x1024_S1024x64_1_1_0_0_n_n.contr.Idx) :
    (dot_S1024x1024_S64x1024_S1024x64_1_1_0_0_n_n.lhsIdx i q 1).val = (q ⟨0, by decide⟩).val :=
  dot_S1024x1024_S64x1024_S1024x64_1_1_0_0_n_n.lhsIdx_val_of_single rfl i q
theorem rhs_exp (i : S1024x64.Idx) (q : dot_S1024x1024_S64x1024_S1024x64_1_1_0_0_n_n.contr.Idx) :
    (dot_S1024x1024_S64x1024_S1024x64_1_1_0_0_n_n.rhsIdx i q 0).val = (i 1).val := by
  unfold DotDims.rhsIdx
  rw [dif_neg (show ¬(0 : Fin S64x1024.rank) ∈ dot_S1024x1024_S64x1024_S1024x64_1_1_0_0_n_n.rhsBatch by decide), dif_pos (show (0 : Fin S64x1024.rank) ∈ dot_S1024x1024_S64x1024_S1024x64_1_1_0_0_n_n.rhsNonContracting by decide)]
  rfl
theorem rhs_feat (i : S1024x64.Idx) (q : dot_S1024x1024_S64x1024_S1024x64_1_1_0_0_n_n.contr.Idx) :
    (dot_S1024x1024_S64x1024_S1024x64_1_1_0_0_n_n.rhsIdx i q 1).val = (q ⟨0, by decide⟩).val :=
  dot_S1024x1024_S64x1024_S1024x64_1_1_0_0_n_n.rhsIdx_val_of_single rfl i q

/-- The partial product at (token `p`, expert `q`): the sum over the step's 1024 features. -/
theorem pay1_apply (x0 : Vec Ideal S1024x1024 .f32) (w3 : Vec Ideal S64x1024 .f32) (p : Fin 1024) (q : Fin 64) :
    k0_pay1 (F := Ideal) x0 w3 (ix2 p q) = ∑ j : Fin 1024, x0 (ix2 p j) * w3 (ix2 q j) := by
  unfold k0_pay1
  simp only [matmul]
  rw [Ideal.matmul_constant_zero_apply, ← Equiv.sum_comp (ValueIdx.contrEquiv1 dot_S1024x1024_S64x1024_S1024x64_1_1_0_0_n_n 1024 rfl rfl).symm]
  refine Finset.sum_congr rfl fun k _ => ?_
  have hk := ValueIdx.contrEquiv1_symm_val dot_S1024x1024_S64x1024_S1024x64_1_1_0_0_n_n 1024 rfl rfl k
  have el : dot_S1024x1024_S64x1024_S1024x64_1_1_0_0_n_n.lhsIdx (ix2 p q) ((ValueIdx.contrEquiv1 dot_S1024x1024_S64x1024_S1024x64_1_1_0_0_n_n 1024 rfl rfl).symm k) = ix2 p k := funext fun a => Fin.ext (by
    match a with
    | ⟨0, _⟩ => exact lhs_tok _ _
    | ⟨1, _⟩ => exact (lhs_feat _ _).trans hk)
  have er : dot_S1024x1024_S64x1024_S1024x64_1_1_0_0_n_n.rhsIdx (ix2 p q) ((ValueIdx.contrEquiv1 dot_S1024x1024_S64x1024_S1024x64_1_1_0_0_n_n 1024 rfl rfl).symm k) = ix2 q k := funext fun a => Fin.ext (by
    match a with
    | ⟨0, _⟩ => exact rhs_exp _ _
    | ⟨1, _⟩ => exact (rhs_feat _ _).trans hk)
  rw [el, er]

/-- The first step's store: the partial product plus the expert's bias. -/
theorem pay2_apply (x0 : Vec Ideal S1024x1024 .f32) (w3 : Vec Ideal S64x1024 .f32) (b2 : Vec Ideal S1x64 .f32) (p : Fin 1024) (q : Fin 64) :
    k0_pay2 (F := Ideal) x0 w3 b2 (ix2 p q) = (∑ j : Fin 1024, x0 (ix2 p j) * w3 (ix2 q j)) + b2 (ix2 (0 : Fin 1) q) := by
  unfold k0_pay2
  rw [shapeCast_self, shapeCast_self, addf_apply, pay1_apply, broadcastTo_1b_ab_apply]

/-- A later step's store: the accumulator plus the partial product. -/
theorem pay3_apply (x0 : Vec Ideal S1024x1024 .f32) (w3 : Vec Ideal S64x1024 .f32) (acc : Vec Ideal S1024x64 .f32) (p : Fin 1024) (q : Fin 64) :
    k0_pay3 (F := Ideal) x0 w3 acc (ix2 p q) = acc (ix2 p q) + ∑ j : Fin 1024, x0 (ix2 p j) * w3 (ix2 q j) := by
  unfold k0_pay3
  rw [shapeCast_self, addf_apply, pay1_apply]

/-! ## The last step: one value per token, spread over the token's 64 experts -/

/-- A column of one value per token, broadcast over the 64 experts, reads at (p, q) the value of token p. -/
theorem bcol_apply {α : Type} (v : S1024x1.Idx → α) (p : Fin 1024) (q : Fin 64) :
    broadcastTo S1024x64 v broadcasts_S1024x1_S1024x64 (ix2 p q) = v (ix2 p (0 : Fin 1)) :=
  broadcastTo_apply v broadcasts_S1024x1_S1024x64 (ix2 p q) (ix2 p (0 : Fin 1)) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- A vector of one value per token, viewed as a column, reads at (p, 0) the value of token p. -/
theorem scol_apply {α : Type} (col : S1024.Idx → α) (p : Fin 1024) :
    shapeCast S1024x1 col shapeCasts_S1024_S1024x1 (ix2 p (0 : Fin 1)) = col (ix1 p) :=
  shapeCast_apply col shapeCasts_S1024_S1024x1 (ix2 p (0 : Fin 1)) (ix1 p) (by
    rw [Shape.rowMajor_val_one, Shape.rowMajor_val_two]; show p.val = p.val * 1 + 0; omega)

/-- The exponential of an array, entry by entry. -/
theorem vexp_apply {s : Shape} (x : FVec Ideal s .f32) (i : s.Idx) : Idealize.ShloMosaic.exp x i = Ideal.exp (x i) := rfl

/-- A token's row of a 1024 × 64 array: the token's index with the expert inserted on the reduced axis. -/
theorem lift_row (p : Fin 1024) (e : Fin 64) : reduces_S1024x64_S1024.lift (ix1 p) e = ix2 p e :=
  funext fun a => Fin.ext (by match a with | ⟨0, _⟩ => rfl | ⟨1, _⟩ => rfl)

/-- The maximum over the experts, from −∞, at token p: the row's maximum. -/
theorem rowmax_apply (src : FVec Ideal S1024x64 .f32) (hφ : FKind.Formats .f32) (hacc : (0xFF800000#32 : BitVec 32) = 0xFF800000#32)
    (p : Fin 1024) :
    multiReduction (F := Ideal) .maximumf [1] S1024 src 0xFF800000#32 reduces_S1024x64_S1024 hφ hacc (ix1 p)
      = rowMax (fun e => src (ix2 p e)) := by
  refine (Ideal.multiReduction_maximumf_single src 0xFF800000#32 reduces_S1024x64_S1024 hφ hacc (ix1 p)).trans ?_
  unfold rowMax
  rw [Ideal.ofBits_def, ofBits_neg_inf]
  exact congrArg (fun f => Finset.fold max ⊥ f Finset.univ) (funext fun e => congrArg src (lift_row p e))

/-- The sum over the experts, from zero, at token p: the row's sum. -/
theorem rowsum_apply (src : FVec Ideal S1024x64 .f32) (hφ : FKind.Formats .f32) (hacc : (0x00000000#32 : BitVec 32) = 0x00000000#32)
    (p : Fin 1024) :
    multiReduction (F := Ideal) .add [1] S1024 src 0x00000000#32 reduces_S1024x64_S1024 hφ hacc (ix1 p)
      = ∑ e : Fin 64, src (ix2 p e) := by
  refine (Ideal.multiReduction_add_single src 0x00000000#32 reduces_S1024x64_S1024 hφ hacc (ix1 p)).trans ?_
  exact Finset.sum_congr rfl fun e _ => congrArg src (lift_row p e)

/-- The last step's store is the kernel's form of the softmax of the token's accumulator row. -/
theorem pay4_apply (acc : FVec Ideal S1024x64 .f32) (p : Fin 1024) (q : Fin 64) :
    k0_pay4 (F := Ideal) acc (ix2 p q) = softMul (fun e => acc (ix2 p e)) q := by
  unfold k0_pay4 softMul
  simp only [mulf_apply, bcol_apply, divf_apply, broadcast_apply, scol_apply, subf_apply, vexp_apply, Ideal.ofBits_def, ofBits_one]
  rw [rowsum_apply _ _ _ p]
  simp only [vexp_apply, subf_apply, bcol_apply, scol_apply]
  rw [rowmax_apply acc _ _ p]

end Cert.KernelIdeal.Pay

end
-- ==== Proof.KValue.lean ====
/-
  What the router kernel's output array holds after the run, over the extended reals: the function `K` of the three
  argument arrays (each token's accumulator after its four feature steps, softmaxed the kernel's way).

  The grid walks 32 token blocks of 1024 tokens, and for each the four feature steps. Point `t` is token block
  `t / 4` at feature step `t mod 4`. Its token block holds tokens `1024 (t / 4) + p` at features `1024 (t mod 4) + j`;
  the weight block is the whole weight array, of which the body reads columns `1024 (t mod 4) + j`; the bias row is
  the bias, reshaped to one row by the host before the call.
  By induction on the point, after point `t` the accumulator holds, at (token p, expert q), the first `t mod 4 + 1`
  partial inner products of token `1024 (t / 4) + p` with expert q's weights, accumulated on top of the bias.
  So at a token block's last step the output block is the softmax of those tokens' finished accumulators, and the
  32 blocks written back at those steps tile the output array.
-/
import proofs.«148318_g69174743269937_cont_9to1c4b_262_9_alg».proof.Proof.Pieces
import proofs.«148318_g69174743269937_cont_9to1c4b_262_9_alg».proof.Proof.Payloads
import Idealize.ShloMosaic.Lib.StableHlo.Run

set_option maxRecDepth 16384

noncomputable section

namespace Cert.KernelIdeal.Body

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal.Gen Cert.KernelIdeal.Pay Cert.Router Cert.Spec
open scoped BigOperators

variable (m : (ℓ : Loc nD τ sig) → Buf (Elt Ideal) ℓ) (ρ : Dev nD → PrngReg)

/-! ## The grid and the index maps, decided over the 128 points -/

theorem step_of_point : ∀ t : Fin cfg0.N, (grid0.coords t 1).val = t.val % 4 :=
  (by decide +kernel : ∀ t : Fin grid0.N, (grid0.coords t 1).val = t.val % 4)

theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

theorem point_lt (t : Fin cfg0.N) : t.val < 128 := lt_of_lt_of_eq t.isLt (show cfg0.N = 128 from N_0)

/-! ## The arrays as the region finds them, and the blocks read off them -/

abbrev xarr (c : Dev nD) : Vec Ideal S32768x4096 .f32 := V m c main_arg0
abbrev warr (c : Dev nD) : Vec Ideal S64x4096 .f32 := V m c main_arg1
abbrev brow (c : Dev nD) : Vec Ideal S1x64 .f32 := V m c main_v0
abbrev barr (c : Dev nD) : Vec Ideal S64 .f32 := m ((c : Thread nD τ).loc main_arg2)

/-- The token of block-row `p` at point `n`: token `1024 (n / 4) + p`. -/
def tok (n : ℕ) (hn : n < 128) (p : Fin 1024) : Fin 32768 := ⟨1024 * (n / 4) + p.val, by have := p.isLt; omega⟩

/-- The token block at point `t`: tokens `1024 (t / 4) + p`, features `1024 (t mod 4) + j`. -/
theorem xblk_apply (c : Dev nD) (t : Fin cfg0.N) (p : Fin 1024) (j : Fin 1024) :
    xblk m c t (ix2 p j) = xarr m c (ix2 (tok t.val (point_lt t) p) (⟨1024 * (t.val % 4) + j.val, by have := j.isLt; omega⟩ : Fin 4096)) := by
  obtain ⟨e0, e1, -⟩ := idx_facts t
  show V m c main_arg0 (((cfg0.win 0).blk t).view.emb (ix2 p j)) = V m c main_arg0 _
  refine congrArg (V m c main_arg0) (funext fun a => Fin.ext ?_)
  match a with
  | ⟨0, _⟩ => show win0_0.index t (0 : Fin 2) * 1024 + 1 * p.val = 1024 * (t.val / 4) + p.val; omega
  | ⟨1, _⟩ => show win0_0.index t (1 : Fin 2) * 1024 + 1 * j.val = 1024 * (t.val % 4) + j.val; omega

/-- The weights' slice at point `t`: every expert, features `1024 (t mod 4) + j`. -/
theorem wslice_apply (c : Dev nD) (t : Fin cfg0.N) (q : Fin 64) (j : Fin 1024) :
    wslice m c t (ix2 q j) = warr m c (ix2 q (⟨1024 * (t.val % 4) + j.val, by have := j.isLt; omega⟩ : Fin 4096)) := by
  obtain ⟨-, -, e2, e3, -⟩ := idx_facts t
  have k1 := step_of_point t
  have ho := k0_off1_eq (grid0.coords t)
  have o0 : k0_off1 (grid0.coords t) 0 = 0 := by rw [ho]; rfl
  have o1 : k0_off1 (grid0.coords t) 1 = 1024 * (grid0.coords t 1).val := by rw [ho]; rfl
  show V m c main_arg1 (((cfg0.win 1).blk t).view.emb
      ((Rect.unit (s := S64x4096) (k0_off1 (grid0.coords t)) S64x1024.size (k0_off1_inb (grid0.coords t))).idx (ix2 q j))) = V m c main_arg1 _
  refine congrArg (V m c main_arg1) (funext fun a => Fin.ext ?_)
  match a with
  | ⟨0, _⟩ => show win0_1.index t (0 : Fin 2) * 64 + 1 * (k0_off1 (grid0.coords t) 0 + 1 * q.val) = q.val; omega
  | ⟨1, _⟩ => show win0_1.index t (1 : Fin 2) * 4096 + 1 * (k0_off1 (grid0.coords t) 1 + 1 * j.val) = 1024 * (t.val % 4) + j.val; omega

/-- The host reshapes the bias to one row before the call. -/
theorem brow_eq (c : Dev nD) : brow m c = shapeCast S1x64 (barr m c) shapeCasts_S64_S1x64 := by
  show (V m c main_v0 : S1x64.Idx → EReal) = shapeCast S1x64 (m ((c : Thread nD τ).loc main_arg2)) shapeCasts_S64_S1x64
  dsimp only [Gen.V, Gen.hostOps0]; after_results; rfl

/-- The bias row at point `t`: the bias. -/
theorem bblk_apply (c : Dev nD) (t : Fin cfg0.N) (q : Fin 64) : bblk m c t (ix2 (0 : Fin 1) q) = barr m c (ix1 q) := by
  obtain ⟨-, -, -, -, e4, e5, -⟩ := idx_facts t
  have h : bblk m c t (ix2 (0 : Fin 1) q) = brow m c (ix2 (0 : Fin 1) q) := by
    show V m c main_v0 (((cfg0.win 2).blk t).view.emb (ix2 (0 : Fin 1) q)) = V m c main_v0 _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  rw [h, brow_eq, shapeCast_a_1a_apply]

/-- The partial product at point `t` is the partial inner product over feature step `t mod 4`. -/
theorem partial_eq (c : Dev nD) (t : Fin cfg0.N) (p : Fin 1024) (q : Fin 64) :
    ∑ j : Fin 1024, xblk m c t (ix2 p j) * wslice m c t (ix2 q j)
      = part (fun j => xarr m c (ix2 (tok t.val (point_lt t) p) j)) (fun j => warr m c (ix2 q j)) ⟨t.val % 4, Nat.mod_lt _ (by decide)⟩ := by
  unfold part
  exact Finset.sum_congr rfl fun j _ => by rw [xblk_apply, wslice_apply]

/-! ## The accumulator after each point -/

/-- At a first step: the first partial plus the bias. -/
theorem acc_first (c : Dev nD) (t : Fin cfg0.N) (h0 : t.val % 4 = 0) (p : Fin 1024) (q : Fin 64) :
    accAfter m c t.val t.isLt (ix2 p q) = accRow (xarr m c) (warr m c) (barr m c) (tok t.val (point_lt t) p) (t.val % 4) q := by
  rw [accAfter_first m c t h0, accOfFirst_eq]
  refine (pay2_apply _ _ _ p q).trans ?_
  rw [partial_eq, bblk_apply]
  unfold accRow
  have hz : ∀ (P : Fin 4 → EReal) (b : EReal),
      accUpTo P b (t.val % 4) = P ⟨t.val % 4, Nat.mod_lt _ (by decide)⟩ + b := fun P b => by
    have hk : (⟨t.val % 4, Nat.mod_lt _ (by decide)⟩ : Fin 4) = 0 := Fin.ext h0
    rw [hk, h0]; rfl
  rw [hz]

/-- At a later step: what the point before left, plus this step's partial. -/
theorem acc_later (c : Dev nD) (t : Fin cfg0.N) (h0 : ¬t.val % 4 = 0) (p : Fin 1024) (q : Fin 64)
    (ih : accAfter m c (t.val - 1) (Nat.lt_of_le_of_lt (Nat.sub_le _ _) t.isLt) (ix2 p q)
      = accRow (xarr m c) (warr m c) (barr m c) (tok t.val (point_lt t) p) ((t.val - 1) % 4) q) :
    accAfter m c t.val t.isLt (ix2 p q) = accRow (xarr m c) (warr m c) (barr m c) (tok t.val (point_lt t) p) (t.val % 4) q := by
  have key : k0_pay3 (F := Ideal) (xblk m c t) (wslice m c t) (accAfter m c (t.val - 1) (Nat.lt_of_le_of_lt (Nat.sub_le _ _) t.isLt)) (ix2 p q)
      = accRow (xarr m c) (warr m c) (barr m c) (tok t.val (point_lt t) p) (t.val % 4) q := by
    refine (pay3_apply _ _ _ p q).trans ?_
    rw [ih, partial_eq]
    unfold accRow
    have hs : ∀ (P : Fin 4 → EReal) (b : EReal),
        accUpTo P b (t.val % 4) = accUpTo P b ((t.val - 1) % 4) + P ⟨t.val % 4, Nat.mod_lt _ (by decide)⟩ := fun P b => by
      have hk : (⟨t.val % 4, Nat.mod_lt _ (by decide)⟩ : Fin 4) = ⟨((t.val - 1) % 4 + 1) % 4, Nat.mod_lt _ (by decide)⟩ :=
        Fin.ext (by show t.val % 4 = ((t.val - 1) % 4 + 1) % 4; omega)
      have e1 : t.val % 4 = (t.val - 1) % 4 + 1 := by omega
      rw [hk, e1]; rfl
    rw [hs]
  by_cases h3 : t.val % 4 = 3
  · rw [accAfter_last m c t h0 h3, accOfLast_eq]; exact key
  · rw [accAfter_mid m c t h0 h3, accOfMid_eq]; exact key

/-- After point `n` the accumulator holds, at (p, q), the accumulated partials of token `1024 (n / 4) + p` and expert q
    up to feature step `n mod 4`. -/
theorem accAfter_eq (c : Dev nD) : ∀ (n : ℕ) (hn : n < cfg0.N) (p : Fin 1024) (q : Fin 64),
    accAfter m c n hn (ix2 p q) = accRow (xarr m c) (warr m c) (barr m c) (tok n (point_lt ⟨n, hn⟩) p) (n % 4) q := by
  intro n
  induction n with
  | zero => intro hn p q; exact acc_first m c ⟨0, hn⟩ (Nat.zero_mod 4) p q
  | succ n ih =>
    intro hn p q
    by_cases h0 : (n + 1) % 4 = 0
    · exact acc_first m c ⟨n + 1, hn⟩ h0 p q
    · refine acc_later m c ⟨n + 1, hn⟩ h0 p q ?_
      have hprev := ih (Nat.lt_of_succ_lt hn) p q
      have htok : tok n (point_lt ⟨n, Nat.lt_of_succ_lt hn⟩) p = tok (n + 1) (point_lt ⟨n + 1, hn⟩) p :=
        Fin.ext (by show 1024 * (n / 4) + p.val = 1024 * ((n + 1) / 4) + p.val; omega)
      rw [htok] at hprev
      exact hprev

/-! ## What a last step writes back, and the whole output array -/

/-- Point `t`, when it writes back, writes block `t` of `K` of the arrays. -/
theorem flushed_eq (c : Dev nD) (t : Fin cfg0.N) (hf : (cfg0.win 3).flush t = true) :
    (dats m 0 c).flushed 3 t = ((cfg0.win 3).blk t).view.read (Elt Ideal) (K (xarr m c) (warr m c) (barr m c)) := by
  have h3 : t.val % 4 = 3 := (flush0_3 t).mp hf
  have h0 : ¬t.val % 4 = 0 := by omega
  obtain ⟨-, -, -, -, -, -, e6, e7⟩ := idx_facts t
  show (cfg0.win 3).cut (grid0.coords t) ((dats m 0 c).after 3 t) = _
  rw [after3, outAfter_last m c t h0 h3, outOfLast_eq, ← accOfLast_eq m c t h0 h3, ← accAfter_last m c t h0 h3]
  funext y
  obtain ⟨p, q, rfl⟩ : ∃ (p : Fin 1024) (q : Fin 64), y = ix2 p q := ⟨y 0, y 1, eq_ix2 y⟩
  show k0_pay4 (F := Ideal) (accAfter m c t.val t.isLt) (ix2 p q)
    = K (xarr m c) (warr m c) (barr m c) (((cfg0.win 3).blk t).view.emb (ix2 p q))
  rw [pay4_apply]
  unfold K
  have hr : (⟨((((cfg0.win 3).blk t).view.emb (ix2 p q)) 0).val, ((((cfg0.win 3).blk t).view.emb (ix2 p q)) 0).isLt⟩ : Fin 32768)
      = tok t.val (point_lt t) p :=
    Fin.ext (by show win0_3.index t (0 : Fin 2) * 1024 + 1 * p.val = 1024 * (t.val / 4) + p.val; omega)
  have hq : (⟨((((cfg0.win 3).blk t).view.emb (ix2 p q)) 1).val, ((((cfg0.win 3).blk t).view.emb (ix2 p q)) 1).isLt⟩ : Fin 64) = q :=
    Fin.ext (by show win0_3.index t (1 : Fin 2) * 64 + 1 * q.val = q.val; omega)
  rw [hr, hq]
  refine congrArg (softMul · q) (funext fun e => ?_)
  rw [accAfter_eq m c t.val t.isLt p e, h3]

/-- An index of the output array is in point `t`'s block iff each coordinate is in the block's range. -/
theorem mem_blk3 (t : Fin cfg0.N) (i : S32768x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v1).slice (win0_3.rect t)).set ↔ _
  rw [View.set_slice_whole, Rect.mem_set_unit]
  exact Iff.rfl

/-- Every index of the output array is in the block some last step writes back: token `r` is in token block
    `r / 1024`, written back at point `4 (r / 1024) + 3`. -/
theorem cover3 (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 128 := N_0
  have hlt : 4 * ((i 0).val / 1024) + 3 < cfg0.N := by omega
  obtain ⟨-, -, -, -, -, -, e6, e7⟩ := idx_facts ⟨4 * ((i 0).val / 1024) + 3, hlt⟩
  refine ⟨⟨4 * ((i 0).val / 1024) + 3, hlt⟩, (flush0_3 _).mpr (by show (4 * ((i 0).val / 1024) + 3) % 4 = 3; omega), ?_⟩
  rw [mem_blk3]
  intro a
  match a with
  | ⟨0, _⟩ =>
    show win0_3.index ⟨4 * ((i 0).val / 1024) + 3, hlt⟩ (0 : Fin 2) * 1024 ≤ (i 0).val
      ∧ (i 0).val < win0_3.index ⟨4 * ((i 0).val / 1024) + 3, hlt⟩ (0 : Fin 2) * 1024 + 1024
    rw [e6]; show (4 * ((i 0).val / 1024) + 3) / 4 * 1024 ≤ (i 0).val ∧ (i 0).val < (4 * ((i 0).val / 1024) + 3) / 4 * 1024 + 1024
    omega
  | ⟨1, _⟩ =>
    show win0_3.index ⟨4 * ((i 0).val / 1024) + 3, hlt⟩ (1 : Fin 2) * 64 ≤ (i 1).val
      ∧ (i 1).val < win0_3.index ⟨4 * ((i 0).val / 1024) + 3, hlt⟩ (1 : Fin 2) * 64 + 64
    rw [e7]; omega

/-- The output array after the run is `K` of the arrays as the region finds them. -/
theorem final3 (c : Dev nD) : (dats m 0 c).arrAt 3 cfg0.N = K (xarr m c) (warr m c) (barr m c) :=
  (dats m 0 c).arrAt_eq_of_cover 3 _ (fun t hf => flushed_eq m c t hf) cover3

/-- Every weakly fair execution of the idealized kernel terminates with the result array at `K` of the argument arrays
    as launched, and the arguments unchanged. -/
theorem run_value : θ_run defs (onTc (τ := τ) (main (F := Ideal))) ⟨m, fun _ => 0, ρ⟩ fun r => ∀ c : Dev nD,
      r.2.mem ((c : Thread nD τ).loc main_v1) = K (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      refine (((h c).1 3).trans (final3 m c)).trans ?_
      show K (V m c main_arg0) (V m c main_arg1) _ = _
      rw [V_main_arg0, V_main_arg1],
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Body

end
-- ==== Proof.RefValue.lean ====
/-
  The reference's result, read index by index over the extended reals: it is the function `G` of the three
  argument arrays — each token's logits (one sum over the 4096 features of token times weight, plus the bias), then
  the softmax of the token's 64 logits, dividing each exponential by the row's sum.

  The reference's operations are read one at a time by the generated read-at-an-index lemmas; the one they do not
  read, the row maximum, is a fold of `max` from −∞ over the row's 64 entries.
-/
import proofs.«148318_g69174743269937_cont_9to1c4b_262_9_alg».proof.Proof.Gen.ReferenceIdeal.Read
import proofs.«148318_g69174743269937_cont_9to1c4b_262_9_alg».proof.Proof.SoftmaxLaw
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
open Cert.Router Cert.Spec
open scoped BigOperators

variable (x0 : (⟨S32768x4096, .f32⟩ : BufTy).Contents (Elt Ideal)) (x1 : (⟨S64x4096, .f32⟩ : BufTy).Contents (Elt Ideal))
  (x2 : (⟨S64, .f32⟩ : BufTy).Contents (Elt Ideal))

/-- The logits: the product with the transposed weights plus the broadcast bias, at (token r, expert e). -/
theorem logits_apply (r : Fin 32768) (e : Fin 64) :
    val_main_v4 (F := Ideal) x0 x1 x2 (ix2 r e) = logitRow x0 x1 x2 r e := by
  have hl : ∀ k : Fin 4096, lidx_main_v1 (ix2 r e) k = ix2 r k := fun k =>
    funext fun a => Fin.ext (by match a with | ⟨0, _⟩ => rfl | ⟨1, _⟩ => rfl)
  have hr : ∀ k : Fin 4096, idx_main_v0 (ridx_main_v1 (ix2 r e) k) = ix2 e k := fun k =>
    funext fun a => Fin.ext (by match a with | ⟨0, _⟩ => rfl | ⟨1, _⟩ => rfl)
  have hb : idx_main_v2 (idx_main_v3 (ix2 r e)) = ix1 e :=
    funext fun a => Fin.ext (by match a with | ⟨0, _⟩ => rfl)
  rw [val_main_v4_apply, val_main_v1_apply, val_main_v3_apply, val_main_v2_apply]
  simp only [val_main_v0_apply, hl, hr, hb, Ideal.addf_def]
  rfl

/-- A token's row of the 32768 × 64 logits: the token's index with the expert inserted on the reduced axis. -/
theorem lift_row (h : S32768x64.Reduces [1] S32768) (r : Fin 32768) (e : Fin 64) : h.lift (ix1 r) e = ix2 r e :=
  funext fun a => Fin.ext (by match a with | ⟨0, _⟩ => rfl | ⟨1, _⟩ => rfl)

/-- The row maximum, the one operation the generated lemmas do not read: the fold of `max` from −∞ over the row. -/
theorem rowmax_apply (r : Fin 32768) :
    val_main_v5 (F := Ideal) x0 x1 x2 (ix1 r) = rowMax (logitRow x0 x1 x2 r) := by
  unfold val_main_v5
  rw [Host.reduce_eq_fold_single FloatOps.maximumf _ _ reducesTo_S32768x64_S32768_d1 (by decide : S32768x64.Reduces [1] S32768) h_S_ (ix1 r)]
  unfold rowMax
  rw [val_main_cst_apply, Ideal.ofBits_def, ofBits_neg_inf]
  exact congrArg (fun f => Finset.fold max ⊥ f Finset.univ) (funext fun e =>
    (congrArg (val_main_v4 (F := Ideal) x0 x1 x2) (lift_row _ r e)).trans (logits_apply x0 x1 x2 r e))

/-- The exponentials: exp(logit − max(−∞, row maximum)). -/
theorem exps_apply (r : Fin 32768) (e : Fin 64) :
    val_main_v11 (F := Ideal) x0 x1 x2 (ix2 r e)
      = Ideal.exp (logitRow x0 x1 x2 r e - max ⊥ (rowMax (logitRow x0 x1 x2 r))) := by
  have h1 : idx_main_v8 (idx_main_v9 (ix2 r e)) = ix1 r :=
    funext fun a => Fin.ext (by match a with | ⟨0, _⟩ => rfl)
  rw [val_main_v11_apply, val_main_v10_apply, val_main_v9_apply, val_main_v8_apply, val_main_v7_apply, val_main_v6_apply,
    val_main_cst_0_apply, h1, rowmax_apply, logits_apply]
  simp only [Ideal.hostUnary_exp_def, Ideal.subf_def, Ideal.maximumf_def, Ideal.ofBits_def, ofBits_neg_inf]

/-- The reference's result is `G` of its arguments. -/
theorem result_eq : val_main_v15 (F := Ideal) x0 x1 x2 = G x0 x1 x2 := by
  funext i
  obtain ⟨r, e, rfl⟩ : ∃ (r : Fin 32768) (e : Fin 64), i = ix2 r e := ⟨i 0, i 1, eq_ix2 i⟩
  have h2 : idx_main_v13 (idx_main_v14 (ix2 r e)) = ix1 r :=
    funext fun a => Fin.ext (by match a with | ⟨0, _⟩ => rfl)
  have h3 : ∀ k : Fin 64, idx_main_v12 (ix1 r) k = ix2 r k := fun k =>
    funext fun a => Fin.ext (by match a with | ⟨0, _⟩ => rfl | ⟨1, _⟩ => rfl)
  show _ = softDiv (logitRow x0 x1 x2 r) e
  rw [val_main_v15_apply, val_main_v14_apply, val_main_v13_apply, h2, val_main_v12_apply, val_main_cst_1_apply]
  simp only [h3, exps_apply, Ideal.hostDivf_def, Ideal.ofBits_def, Ideal.ofBits_zero_f32]
  rfl

end Cert.ReferenceIdeal.RefValue

end
-- ==== Proof.Finite.lean ====
/-
  From the precondition to real entries. The precondition says, of each of the three argument arrays, that every
  entry's absolute value is below +∞ (the conjunction of three "all entries" reductions is 1). An extended real
  whose absolute value max(x, −x) is below +∞ is neither +∞ nor −∞, so it is a real number.
-/
import proofs.«148318_g69174743269937_cont_9to1c4b_262_9_alg».proof.Pre_finite_inputs
import proofs.«148318_g69174743269937_cont_9to1c4b_262_9_alg».proof.Proof.LibAllReal
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs Cert.Spec

instance : Subsingleton S_.Idx := ⟨fun a b => funext fun d => d.elim0⟩

/-- The word `0x7F800000` denotes +∞. -/
theorem ofBits_pos_inf : Ideal.ofBits .f32 0x7F800000#32 = (⊤ : EReal) := by simp [Ideal.ofBits, Ideal.ieee]

/-- An extended real whose absolute value compares below +∞ is a real number. -/
theorem real_of_abs_lt_top (x : EReal) (h : Ideal.cmp .olt (max x (-x)) (Ideal.ofBits .f32 0x7F800000#32) = 1#1) :
    ∃ r : ℝ, x = (r : EReal) := by
  rw [ofBits_pos_inf] at h
  by_cases hlt : max x (-x) < ⊤
  · have h1 : x ≠ ⊤ := fun e => by rw [e] at hlt; simp at hlt
    have h2 : x ≠ ⊥ := fun e => by rw [e] at hlt; simp at hlt
    exact ⟨x.toReal, (EReal.coe_toReal h1 h2).symm⟩
  · exfalso
    have h0 : Ideal.cmp .olt (max x (-x)) ⊤ = 0#1 := by simp [Ideal.cmp, hlt]
    rw [h0] at h
    exact absurd h (by decide)

/-- Under the precondition every entry of each argument array is a real number. -/
theorem allReal_of_pre [Facts] (a0 : FVec Ideal S32768x4096 .f32) (a1 : FVec Ideal S64x4096 .f32) (a2 : FVec Ideal S64 .f32)
    (h : fn (F := Ideal) a0 a1 a2 = fun _ => 1#1) : AllReal a0 ∧ AllReal a1 ∧ AllReal a2 := by
  have h0 := congrFun h ValueIdx.ix0
  dsimp only [fn] at h0
  obtain ⟨h01, hc⟩ := IntOp.andi_eq_one.mp h0
  obtain ⟨ha, hb⟩ := IntOp.andi_eq_one.mp h01
  refine ⟨fun i => ?_, fun i => ?_, fun i => ?_⟩
  · exact real_of_abs_lt_top _ (Host.reduce_andi_all _ _ _ _ _ ha i)
  · exact real_of_abs_lt_top _ (Host.reduce_andi_all _ _ _ _ _ hb i)
  · exact real_of_abs_lt_top _ (Host.reduce_andi_all _ _ _ _ _ hc i)

end Cert.Finite

end
-- ==== Proof.lean ====
/-
  A router: weights = softmax(x · Wᵀ + b) over 32768 tokens of 4096 features and 64 experts. The kernel walks 32 token
  blocks by 4 feature steps; at each step it multiplies a 1024 × 1024 token tile with the matching 1024 columns of the
  resident weights, accumulates the 1024 × 64 partial logits in a scratch buffer (the bias added at the first step),
  and at a token block's last step writes exp(l − max l) · (1 / Σ exp(l − max l)) row by row. The reference computes
  the logits by one product with the transposed weights plus the bias and divides each exponential by the row's sum.

  The frames. The body has three cases, by the feature step (first, middle, last). In each it runs to the end from
  whole staging buffers, leaving the accumulator with one covering piece written; the region's invariant carries
  the accumulator from one point to the next. The output window is idle except at the last step of a token block,
  which is exactly where its block is written back. Only input windows stage the argument arrays, and the bias
  bypasses the region, so the three arguments end as they began. The same text proves this at the word level
  and over the extended reals.

  The values, over the extended reals. After point t the accumulator holds the first (t mod 4) + 1 partial inner
  products on top of the bias; after the fourth step that is the whole logit, because addition is commutative and
  associative. The blocks written back at the last steps tile the output array, so it ends as the kernel's softmax
  of the logits. Under the precondition every input entry is a real number, hence so is every logit; the row's
  maximum is real, the exponentials are positive reals and so is their sum s, and a · (1 / s) = a / s: the kernel's
  result is the reference's. The reference's result is read off its run one operation at a time.
-/
import proofs.«148318_g69174743269937_cont_9to1c4b_262_9_alg».proof.Defs
import proofs.«148318_g69174743269937_cont_9to1c4b_262_9_alg».proof.Proof.Gen.Kernel
import proofs.«148318_g69174743269937_cont_9to1c4b_262_9_alg».proof.Proof.Gen.KernelIdeal
import proofs.«148318_g69174743269937_cont_9to1c4b_262_9_alg».proof.Proof.Gen.ReferenceIdeal
import proofs.«148318_g69174743269937_cont_9to1c4b_262_9_alg».proof.Proof.Gen.Pre_finite_inputs
import proofs.«148318_g69174743269937_cont_9to1c4b_262_9_alg».proof.Proof.P.Frame
import proofs.«148318_g69174743269937_cont_9to1c4b_262_9_alg».proof.Proof.KValue
import proofs.«148318_g69174743269937_cont_9to1c4b_262_9_alg».proof.Proof.RefValue
import proofs.«148318_g69174743269937_cont_9to1c4b_262_9_alg».proof.Proof.Finite
import Idealize.ShloMosaic.Adequacy
import Idealize.ShloMosaic.Init

noncomputable section

namespace Cert.Proof

open Idealize.ShloMosaic Idealize.SL.Sem

/-- The word-level kernel runs to the end, faults nowhere, and leaves its three arguments unchanged. -/
theorem frame_p : Cert.frame_Kernel := fun m ρ _ => Cert.Kernel.Body.frame m ρ

/-- The same of the kernel read over the extended reals. -/
theorem frame_pi : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the softmax of the logits, `G` of the
    arguments: the kernel because its accumulated, reciprocal-multiplied form equals `G` on real inputs, the
    reference because its last stage is `G`. -/
theorem algebraic : Cert.algebraic_KernelIdeal_ReferenceIdeal := by
  intro m ρ m' ρ' hpre hagree
  refine ⟨fun c => Cert.Router.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Body.run_value m ρ)
    obtain ⟨hx, hW, hb⟩ := Cert.Finite.allReal_of_pre _ _ _ (hpre c)
    exact Cert.Router.K_eq_G hx hW hb
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
